-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S4096x128 : Shape := ⟨2, ![4096, 128]⟩
abbrev S4096 : Shape := ⟨1, ![4096]⟩
abbrev S4096x1 : Shape := ⟨2, ![4096, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x8192.size a
  hwx0_0 : ∀ i : grid0.Coords, EltTy.bits .f32 = 32 ∨ (Rect.block (s := S8192x8192) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S8192x8192.size a
  hwx0_1 : ∀ i : grid0.Coords, EltTy.bits .f32 = 32 ∨ (Rect.block (s := S8192x8192) S4096x128.size (cc0_transform_1 i) (hinb0_1 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x64x128 : Shape := ⟨3, ![8192, 64, 128]⟩
abbrev S_ : Shape := ⟨0, ![]⟩
abbrev S8192x64 : Shape := ⟨2, ![8192, 64]⟩
abbrev S8192x64x1 : Shape := ⟨3, ![8192, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64x128, .f32⟩
  | .hbm, ⟨2, _⟩ => ⟨S_, .f32⟩
  | .hbm, ⟨3, _⟩ => ⟨S8192x64, .f32⟩
  | .hbm, ⟨4, _⟩ => ⟨S8192x64x1, .f32⟩
  | .hbm, ⟨5, _⟩ => ⟨S_, .f32⟩
  | .hbm, ⟨6, _⟩ => ⟨S8192x64x1, .f32⟩
  | .hbm, ⟨7, _⟩ => ⟨S8192x64x1, .f32⟩
  | .hbm, ⟨8, _⟩ => ⟨S_, .f32⟩
  | .hbm, ⟨9, _⟩ => ⟨S8192x64, .f32⟩
  | .hbm, ⟨10, _⟩ => ⟨S8192x64x1, .f32⟩
  | .hbm, ⟨11, _⟩ => ⟨S_, .f32⟩
  | .hbm, ⟨12, _⟩ => ⟨S8192x64x1, .f32⟩
  | .hbm, ⟨13, _⟩ => ⟨S8192x64x1, .f32⟩
  | .hbm, ⟨14, _⟩ => ⟨S8192x64x1, .f32⟩
  | .hbm, ⟨15, _⟩ => ⟨S_, .f32⟩
  | .hbm, ⟨16, _⟩ => ⟨S8192x64x1, .f32⟩
  | .hbm, ⟨17, _⟩ => ⟨S8192x64x1, .f32⟩
  | .hbm, ⟨18, _⟩ => ⟨S_, .f32⟩
  | .hbm, ⟨19, _⟩ => ⟨S8192x64x1, .f32⟩
  | .hbm, ⟨20, _⟩ => ⟨S8192x64x1, .f32⟩
  | .hbm, ⟨21, _⟩ => ⟨S8192x64x1, .f32⟩
  | .hbm, ⟨22, _⟩ => ⟨S_, .f32⟩
  | .hbm, ⟨23, _⟩ => ⟨S8192x64x1, .f32⟩
  | .hbm, ⟨24, _⟩ => ⟨S8192x64x1, .f32⟩
  | .hbm, ⟨25, _⟩ => ⟨S8192x64x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x64x1, .f32⟩
  | .hbm, ⟨30, _⟩ => ⟨S8192x64x1, .f32⟩
  | .hbm, ⟨31, _⟩ => ⟨S_, .f32⟩
  | .hbm, ⟨32, _⟩ => ⟨S8192x64x1, .f32⟩
  | .hbm, ⟨33, _⟩ => ⟨S8192x64x1, .f32⟩
  | .hbm, ⟨34, _⟩ => ⟨S8192x64x128, .f32⟩
  | .hbm, ⟨35, _⟩ => ⟨S8192x64x128, .f32⟩
  | .hbm, ⟨36, _⟩ => ⟨S8192x64x128, .f32⟩
  | .hbm, ⟨37, _⟩ => ⟨S8192x64x128, .f32⟩
  | .hbm, ⟨38, _⟩ => ⟨S8192x64x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x64x128, .f32⟩
  | .hbm, ⟨43, _⟩ => ⟨S8192x64x128, .f32⟩
  | .hbm, ⟨44, _⟩ => ⟨S_, .f32⟩
  | .hbm, ⟨45, _⟩ => ⟨S8192x64x128, .f32⟩
  | .hbm, ⟨46, _⟩ => ⟨S8192x64x128, .f32⟩
  | .hbm, ⟨47, _⟩ => ⟨S8192x64x128, .f32⟩
  | .hbm, ⟨48, _⟩ => ⟨S8192x64x128, .f32⟩
  | .hbm, ⟨49, _⟩ => ⟨S8192x64x128, .f32⟩
  | .hbm, ⟨50, _⟩ => ⟨S8192x64x128, .f32⟩
  | .hbm, ⟨51, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_cst_7 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  shapeCasts_S8192x8192_S8192x64x128 : S8192x8192.ShapeCasts S8192x64x128
  reducesTo_S8192x64x128_S8192x64_d2 : S8192x64x128.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x128_0_1_2 : S8192x64x1.BroadcastsInDim S8192x64x128 (![0, 1, 2] : Fin 3 → Fin S8192x64x128.rank)
  bcast_S_S8192x64x128 : S_.BroadcastsInDim S8192x64x128 (![] : Fin 0 → Fin S8192x64x128.rank)
  shapeCasts_S8192x64x128_S8192x8192 : S8192x64x128.ShapeCasts S8192x8192

variable [Facts₀]

class Facts : Prop extends Facts₀ where

variable [Facts]
-- ==== Proof.Spec.lean ====
/-
  The specification: fake quantization of an [8192, 8192] array in groups of 128 consecutive columns.

  Row `R` is cut into 64 groups of 128 consecutive columns. For one group, with entries `g 0 … g 127`, let
    lowest  = min (min_l g l) 0,     highest = max (max_l g l) 0        (the observed range, always containing 0),
    step    = max ((highest − lowest) / 255) ε                         (ε = 2⁻²³, so the step is never 0),
    offset  = clamp (round (−128 − lowest / step)),
  where `round` rounds to the nearest integer, ties to even, and `clamp v = min 127 (max (−128) v)`. An entry `e` of the
  group is sent to
    (clamp (round (e / step) + offset) − offset) · step.
  All of this is arithmetic on the extended reals (`Ideal.div` is the extended quotient, `Ideal.liftRound` fixes the
  infinities); the constants are written as the 32-bit words the two programs both carry, and are never evaluated: the same
  word stands on both sides.

  `G x` applies this to every entry `(R, C)` of `x`, the group being the 128 columns `C / 128 · 128 + l` of row `R`.
-/
import Idealize.ShloMosaic.Lib.ValueIdx
import Idealize.ShloMosaic.PureOps.Ideal

noncomputable section

namespace Cert.GroupQuant

open Idealize.ShloMosaic Idealize.ShloMosaic.ValueIdx

/-- The least entry of a group, or 0 if that is smaller: the fold starts from +∞. -/
def lowest (g : Fin 128 → EReal) : EReal :=
  min ((Finset.univ : Finset (Fin 128)).fold min (Ideal.ofBits .f32 0x7F800000#32) g) (Ideal.ofBits .f32 0x00000000#32)

/-- The greatest entry of a group, or 0 if that is greater: the fold starts from −∞. -/
def highest (g : Fin 128 → EReal) : EReal :=
  max ((Finset.univ : Finset (Fin 128)).fold max (Ideal.ofBits .f32 0xFF800000#32) g) (Ideal.ofBits .f32 0x00000000#32)

/-- The quantization step of a group: its range over 255 levels, and at least ε. -/
def step (g : Fin 128 → EReal) : EReal :=
  max (Ideal.div (highest g - lowest g) (Ideal.ofBits .f32 0x437F0000#32)) (Ideal.ofBits .f32 0x34000000#32)

/-- A level confined to the signed 8-bit range [−128, 127]. -/
def clamp (v : EReal) : EReal :=
  min (Ideal.ofBits .f32 0x42FE0000#32) (max (Ideal.ofBits .f32 0xC3000000#32) v)

/-- The level that stands for 0 in a group. -/
def offset (g : Fin 128 → EReal) : EReal :=
  clamp (Ideal.liftRound Ideal.roundHalfEven (Ideal.ofBits .f32 0xC3000000#32 - Ideal.div (lowest g) (step g)))

/-- An entry `e` of the group `g`, quantized to its level and mapped back. -/
def fakeQuant (g : Fin 128 → EReal) (e : EReal) : EReal :=
  (clamp (Ideal.liftRound Ideal.roundHalfEven (Ideal.div e (step g)) + offset g) - offset g) * step g

/-- The 128 entries of row `R` whose columns lie in the group of column `C`. -/
def groupOf (x : (⟨2, ![8192, 8192]⟩ : Shape).Idx → EReal) (R C : Fin 8192) : Fin 128 → EReal :=
  fun l => x (ix2 R ⟨C.val / 128 * 128 + l.val, by have := C.isLt; have := l.isLt; omega⟩)

/-- The whole array, fake-quantized group by group. -/
def G (x : (⟨2, ![8192, 8192]⟩ : Shape).Idx → EReal) : (⟨2, ![8192, 8192]⟩ : Shape).Idx → EReal :=
  fun i => fakeQuant (groupOf x (i 0) (i 1)) (x i)

end Cert.GroupQuant

end
-- ==== Proof.LibLaneFold.lean ====
/-
  A minimum or a maximum taken along the last axis, read at a result index given by coordinates.

  A vector unit reduces an `[a, d]` tile along its lanes (`multi_reduction <minimumf>` / `<maximumf>` over axis 1)
  and leaves an `[a]` vector; a host program reduces an `[a, b, d]` array along its last axis (`stablehlo.reduce`
  with a minimum or maximum body) and leaves an `[a, b]` array. On the extended reals `min` and `max` are commutative
  and associative, so each result entry is the fold of the operation, from the initial value, over the `d` entries of
  its lane, in any order. The lemmas below state exactly that, with the lane named by coordinates (`ix2 i k`,
  `ix3 i j k` for `k : Fin d`), so that the two sides of an equivalence meet in ONE term
  `Finset.univ.fold op init fun k => …`. Generic in the extents and in the float format.
-/
import Idealize.ShloMosaic.Lib.ValueIdx
import Idealize.ShloMosaic.PureOps.Ideal.Laws

namespace Cert.Lib.LaneFold

open Idealize.ShloMosaic Idealize.ShloMosaic.ValueIdx

variable {φ : FTy}

/-- The index of an `[a, d]` tile obtained by inserting the lane coordinate `k` into the result index `(i)` of a
    reduction over axis 1 is `(i, k)`. -/
theorem lift_row {a d : ℕ} (h : (⟨2, ![a, d]⟩ : Shape).Reduces [1] ⟨1, ![a]⟩) (i : Fin a) (k : Fin d) :
    h.lift (ix1 i) k = ix2 i k :=
  funext fun c => Fin.ext (by
    match c with
    | ⟨0, _⟩ => rfl
    | ⟨1, _⟩ => rfl)

/-- The index of an `[a, b, d]` array obtained by inserting the last-axis coordinate `k` into the result index
    `(i, j)` of a reduction over axis 2 is `(i, j, k)`. -/
theorem lift_last {a b d : ℕ} (h : (⟨3, ![a, b, d]⟩ : Shape).Reduces [2] ⟨2, ![a, b]⟩) (i : Fin a) (j : Fin b) (k : Fin d) :
    h.lift (ix2 i j) k = ix3 i j k :=
  funext fun c => Fin.ext (by
    match c with
    | ⟨0, _⟩ => rfl
    | ⟨1, _⟩ => rfl
    | ⟨2, _⟩ => rfl)

/-- The lane minimum of an `[a, d]` tile at row `i`: the fold of `min`, from the accumulator's value, over the row's
    `d` entries. -/
theorem rowMin_apply {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.minimumf.neutral φ hφ)
    (i : Fin a) :
    multiReduction .minimumf [1] ⟨1, ![a]⟩ src acc h hφ hacc (ix1 i)
      = (Finset.univ : Finset (Fin d)).fold min (Ideal.ofBits φ acc) (fun k => src (ix2 i k)) := by
  rw [multiReduction_minimumf_eq_fold]
  refine (h.fold_filter_drop_single _ _ src (ix1 i)).trans ?_
  exact Finset.fold_congr fun k _ => congrArg src (lift_row h i k)

/-- The lane maximum of an `[a, d]` tile at row `i`: the fold of `max`, from the accumulator's value, over the row's
    `d` entries. -/
theorem rowMax_apply {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin d)).fold max (Ideal.ofBits φ acc) (fun k => src (ix2 i k)) := by
  rw [multiReduction_maximumf_eq_fold]
  refine (h.fold_filter_drop_single _ _ src (ix1 i)).trans ?_
  exact Finset.fold_congr fun k _ => congrArg src (lift_row h i k)

/-- A host minimum over the last axis of an `[a, b, d]` array at `(i, j)`: the fold of `min`, from the initial
    value, over the `d` entries `(i, j, ·)`. -/
theorem hostLastMin_apply {a b d : ℕ} {u : Shape} (x : FVec Ideal ⟨3, ![a, b, d]⟩ φ) (init : FVec Ideal u φ)
    (h' : (⟨3, ![a, b, d]⟩ : Shape).ReducesTo [2] ⟨2, ![a, b]⟩) (h : (⟨3, ![a, b, d]⟩ : Shape).Reduces [2] ⟨2, ![a, b]⟩)
    (hu : 0 < u.numel) (i : Fin a) (j : Fin b) :
    Host.reduce FloatOps.minimumf x init h' hu (ix2 i j)
      = (Finset.univ : Finset (Fin d)).fold min (init (Shape.Idx.first hu)) (fun k => x (ix3 i j k)) := by
  rw [Host.reduce_eq_fold_single FloatOps.minimumf x init h' h hu (ix2 i j)]
  exact Finset.fold_congr fun k _ => congrArg x (lift_last h i j k)

/-- A host maximum over the last axis of an `[a, b, d]` array at `(i, j)`: the fold of `max`, from the initial
    value, over the `d` entries `(i, j, ·)`. -/
theorem hostLastMax_apply {a b d : ℕ} {u : Shape} (x : FVec Ideal ⟨3, ![a, b, d]⟩ φ) (init : FVec Ideal u φ)
    (h' : (⟨3, ![a, b, d]⟩ : Shape).ReducesTo [2] ⟨2, ![a, b]⟩) (h : (⟨3, ![a, b, d]⟩ : Shape).Reduces [2] ⟨2, ![a, b]⟩)
    (hu : 0 < u.numel) (i : Fin a) (j : Fin b) :
    Host.reduce FloatOps.maximumf x init h' hu (ix2 i j)
      = (Finset.univ : Finset (Fin d)).fold max (init (Shape.Idx.first hu)) (fun k => x (ix3 i j k)) := by
  rw [Host.reduce_eq_fold_single FloatOps.maximumf x init h' h hu (ix2 i j)]
  exact Finset.fold_congr fun k _ => congrArg x (lift_last h i j k)

end Cert.Lib.LaneFold
-- ==== Proof.KernelBlock.lean ====
/-
  One block of the kernel, entry by entry.

  At a grid point the kernel loads a [4096, 128] block `P` — 4096 rows, and exactly ONE group of 128 columns — and stores
  a block of the same shape. The generated value leg reads the stored block as one function `E1 P` of the loaded one,
  with the two lane reductions kept whole. Here that function is evaluated at the entry `(p, q)`: every reduced value it
  uses is the one of row `p`, whose lane is the group `P (p, ·)`, so the entry is the group's fake quantization of
  `P (p, q)` — the specification's `fakeQuant`, term for term.
-/
import proofs.«133565_j90692529423060_1_alg».proof.Proof.Gen.KernelIdeal.Value
import proofs.«133565_j90692529423060_1_alg».proof.Proof.Spec
import proofs.«133565_j90692529423060_1_alg».proof.Proof.LibLaneFold

noncomputable section

namespace Cert.KernelIdeal.Block

open Cert.KernelIdeal Cert.KernelIdeal.Gen Cert.KernelIdeal.Value Idealize.ShloMosaic Idealize.ShloMosaic.ValueIdx
open Cert.GroupQuant Cert.Lib.LaneFold

/-! The block index `(p, q)` reads the loaded block at `(p, q)` and each reduced vector at row `p`. -/

theorem at_pq (p : Fin 4096) (q : Fin 128) : ix1_0 (ix2 p q) = ix2 p q :=
  funext fun a => Fin.ext (by match a with | ⟨0, _⟩ => rfl | ⟨1, _⟩ => rfl)
theorem row1 (p : Fin 4096) (q : Fin 128) : ix1_1 (ix2 p q) = ix1 p :=
  funext fun a => Fin.ext (by match a with | ⟨0, _⟩ => rfl)
theorem row2 (p : Fin 4096) (q : Fin 128) : ix1_2 (ix2 p q) = ix1 p :=
  funext fun a => Fin.ext (by match a with | ⟨0, _⟩ => rfl)
theorem row3 (p : Fin 4096) (q : Fin 128) : ix1_3 (ix2 p q) = ix1 p :=
  funext fun a => Fin.ext (by match a with | ⟨0, _⟩ => rfl)
theorem row4 (p : Fin 4096) (q : Fin 128) : ix1_4 (ix2 p q) = ix1 p :=
  funext fun a => Fin.ext (by match a with | ⟨0, _⟩ => rfl)
theorem row5 (p : Fin 4096) (q : Fin 128) : ix1_5 (ix2 p q) = ix1 p :=
  funext fun a => Fin.ext (by match a with | ⟨0, _⟩ => rfl)
theorem row6 (p : Fin 4096) (q : Fin 128) : ix1_6 (ix2 p q) = ix1 p :=
  funext fun a => Fin.ext (by match a with | ⟨0, _⟩ => rfl)
theorem row7 (p : Fin 4096) (q : Fin 128) : ix1_7 (ix2 p q) = ix1 p :=
  funext fun a => Fin.ext (by match a with | ⟨0, _⟩ => rfl)
theorem row8 (p : Fin 4096) (q : Fin 128) : ix1_8 (ix2 p q) = ix1 p :=
  funext fun a => Fin.ext (by match a with | ⟨0, _⟩ => rfl)
theorem row9 (p : Fin 4096) (q : Fin 128) : ix1_9 (ix2 p q) = ix1 p :=
  funext fun a => Fin.ext (by match a with | ⟨0, _⟩ => rfl)
theorem row10 (p : Fin 4096) (q : Fin 128) : ix1_10 (ix2 p q) = ix1 p :=
  funext fun a => Fin.ext (by match a with | ⟨0, _⟩ => rfl)

/-- The least entry of row `p` of the block: the fold of `min` from +∞ over the row's 128 lanes. -/
theorem rowMin (P : Vec Ideal S4096x128 .f32) (p : Fin 4096) :
    (multiReduction .minimumf [1] S4096 P 0x7F800000#32 reduces_S4096x128_S4096 (.inl rfl) rfl) (ix1 p)
      = (Finset.univ : Finset (Fin 128)).fold min (Ideal.ofBits .f32 0x7F800000#32) (fun l => P (ix2 p l)) :=
  rowMin_apply P _ _ _ _ p

/-- The greatest entry of row `p` of the block: the fold of `max` from −∞ over the row's 128 lanes. -/
theorem rowMax (P : Vec Ideal S4096x128 .f32) (p : Fin 4096) :
    (multiReduction .maximumf [1] S4096 P 0xFF800000#32 reduces_S4096x128_S4096 (.inl rfl) rfl) (ix1 p)
      = (Finset.univ : Finset (Fin 128)).fold max (Ideal.ofBits .f32 0xFF800000#32) (fun l => P (ix2 p l)) :=
  rowMax_apply P _ _ _ _ p

set_option maxRecDepth 65536 in
/-- THE STORED BLOCK AT `(p, q)`: the fake quantization of `P (p, q)` within the group `P (p, ·)`. -/
theorem stored_apply (P : Vec Ideal S4096x128 .f32) (p : Fin 4096) (q : Fin 128) :
    E1 (F := Ideal) P (ix2 p q) = fakeQuant (fun l => P (ix2 p l)) (P (ix2 p q)) := by
  show _ = _
  simp only [E1, at_pq, row1, row2, row3, row4, row5, row6, row7, row8, row9, row10]
  rw [rowMin P p, rowMax P p]
  simp only [fakeQuant, clamp, offset, step, highest, lowest, Ideal.ofBits_def, Ideal.minimumf_def, Ideal.maximumf_def,
    Ideal.subf_def, Ideal.addf_def, Ideal.mulf_def, Ideal.divf_def, Ideal.roundeven_def]

end Cert.KernelIdeal.Block

end
-- ==== Proof.KernelArray.lean ====
/-
  From the blocks to the whole array.

  The grid has 2 × 64 points. Point `t`, with block indices `(a, b) = (win.index t 0, win.index t 1)`, loads rows
  `a·4096 + p` and columns `b·128 + q` of the argument (`p < 4096`, `q < 128`) and writes the same rows and columns of the
  result. The columns of one block are exactly one group, `(b·128 + q) / 128 · 128 = b·128`, so the stored entry `(p, q)` —
  the fake quantization of the loaded `(p, q)` within the loaded row `p` — is the specification `G` of the argument at
  `(a·4096 + p, b·128 + q)`. The 128 blocks tile the [8192, 8192] result (entry `(R, C)` lies in the block of indices
  `(R / 4096, C / 128)`), so after the run the result array is `G` of the argument everywhere.
-/
import proofs.«133565_j90692529423060_1_alg».proof.Proof.KernelBlock

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.GroupQuant
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Decided over the 128 grid points: the input block moves with the output block, and the output's block indices
    stay within 2 × 64. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 1 ∧ win0_1.index t (1 : Fin 2) ≤ 63 :=
  (by decide +kernel : ∀ t : Fin grid0.N, _)

/-- Every one of the 2 × 64 blocks is some point's. -/
theorem idx_onto : ∀ (a : Fin 2) (b : Fin 64), ∃ t : Fin cfg0.N, win0_1.index t = ![a.val, b.val] :=
  (by decide +kernel : ∀ (a : Fin 2) (b : Fin 64), ∃ t : Fin grid0.N, win0_1.index t = ![a.val, b.val])

/-- A stored block whose loaded block `P` is rows `a·4096 + ·`, columns `b·128 + ·` of an array `X` holds, at `(p, q)`,
    the specification of `X` at `(a·4096 + p, b·128 + q)`: the block's 128 columns are that entry's group. -/
theorem stored_is_spec (X : S8192x8192.Idx → Elt Ideal .f32) (P : Vec Ideal S4096x128 .f32) (a b : ℕ) (ha : a ≤ 1) (hb : b ≤ 63)
    (hP : ∀ (p : Fin 4096) (q : Fin 128), P (ix2 p q)
      = X (ix2 (⟨a * 4096 + p.val, by have := p.isLt; omega⟩ : Fin 8192) (⟨b * 128 + q.val, by have := q.isLt; omega⟩ : Fin 8192)))
    (p : Fin 4096) (q : Fin 128) :
    E1 (F := Ideal) P (ix2 p q)
      = G X (ix2 (⟨a * 4096 + p.val, by have := p.isLt; omega⟩ : Fin 8192) (⟨b * 128 + q.val, by have := q.isLt; omega⟩ : Fin 8192)) := by
  rw [stored_apply]
  show _ = fakeQuant (groupOf X _ _) (X _)
  have hq := q.isLt
  have hg : (fun l => P (ix2 p l)) = groupOf X (⟨a * 4096 + p.val, by have := p.isLt; omega⟩ : Fin 8192)
      (⟨b * 128 + q.val, by omega⟩ : Fin 8192) := by
    funext l
    rw [hP p l]
    refine congrArg X (funext fun ax => Fin.ext ?_)
    have hl := l.isLt
    match ax with
    | ⟨0, _⟩ => rfl
    | ⟨1, _⟩ => show b * 128 + l.val = (b * 128 + q.val) / 128 * 128 + l.val; omega
  rw [hg, hP p q]

/-- WHAT POINT `t` WRITES BACK is block `t` of the specification of the argument array. -/
theorem flushed_eq (c : Dev nD) (t : Fin cfg0.N) :
    (dats m 0 c).flushed 1 t = ((cfg0.win 1).blk t).view.read (Elt Ideal) (G (V m c main_arg0)) := by
  rw [flushed1]
  unfold out0_1
  simp only [View.ld_unit_zero (S := S4096x128) zero_offsets]
  obtain ⟨e0, e1, b0, b1⟩ := idx_facts t
  funext y
  obtain ⟨p, q, rfl⟩ : ∃ (p : Fin 4096) (q : Fin 128), y = ix2 p q := ⟨y 0, y 1, eq_ix2 y⟩
  have hp := p.isLt; have hq := q.isLt
  show View.canon ([⟨r0_0, k0_pay1 (iblk m c 0 t)⟩] : List (View.Piece (Elt Ideal) S4096x128 .f32)) (ix2 p q)
    = G (V m c main_arg0) (((cfg0.win 1).blk t).view.emb (ix2 p q))
  refine (canon1_eq (iblk m c 0 t) (ix2 p q)).trans ?_
  refine (stored_is_spec (V m c main_arg0) (iblk m c 0 t) (win0_1.index t (0 : Fin 2)) (win0_1.index t (1 : Fin 2)) b0 b1 ?_ p q).trans ?_
  · intro p' q'
    have hp' := p'.isLt; have hq' := q'.isLt
    show V m c main_arg0 (((cfg0.win 0).blk t).view.emb (ix2 p' q')) = _
    refine congrArg (V m c main_arg0) (funext fun ax => Fin.ext ?_)
    match ax with
    | ⟨0, _⟩ => show win0_0.index t (0 : Fin 2) * 4096 + 1 * p'.val = win0_1.index t (0 : Fin 2) * 4096 + p'.val; omega
    | ⟨1, _⟩ => show win0_0.index t (1 : Fin 2) * 128 + 1 * q'.val = win0_1.index t (1 : Fin 2) * 128 + q'.val; omega
  · refine congrArg (G (V m c main_arg0)) (funext fun ax => Fin.ext ?_)
    match ax with
    | ⟨0, _⟩ => show win0_1.index t (0 : Fin 2) * 4096 + p.val = win0_1.index t (0 : Fin 2) * 4096 + 1 * p.val; omega
    | ⟨1, _⟩ => show win0_1.index t (1 : Fin 2) * 128 + q.val = win0_1.index t (1 : Fin 2) * 128 + 1 * q.val; omega

/-- An index of the array is in point `t`'s block iff each coordinate is in the block's range on its axis. -/
theorem mem_blk (t : Fin cfg0.N) (i : S8192x8192.Idx) :
    i ∈ ((cfg0.win 1).blk t).view.set ↔ ∀ a : Fin 2, win0_1.index t a * S4096x128.size a ≤ (i a).val
      ∧ (i a).val < win0_1.index t a * S4096x128.size a + S4096x128.size a := by
  show i ∈ ((View.whole main_v0).slice (win0_1.rect t)).set ↔ _
  rw [View.set_slice_whole, Rect.mem_set_unit]
  exact Iff.rfl

/-- The blocks tile the result: entry `(R, C)` lies in the block of indices `(R / 4096, C / 128)`. -/
theorem cover (i : S8192x8192.Idx) : ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := idx_onto ⟨(i 0).val / 4096, by omega⟩ ⟨(i 1).val / 128, by omega⟩
  have q0 : win0_1.index t (0 : Fin 2) = (i 0).val / 4096 := congrFun ht 0
  have q1 : win0_1.index t (1 : Fin 2) = (i 1).val / 128 := congrFun ht 1
  refine ⟨t, flush0_1 t, ?_⟩
  rw [mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- THE RESULT ARRAY after the run is the specification of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run: every weakly fair execution terminates with the result at the specification of the argument and
    the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefStages.lean ====
/-
  The reference, stage by stage, is the specification.

  The reference views the [8192, 8192] array as [8192, 64, 128]: entry `(R, j, l)` of the view is entry `(R, j·128 + l)`
  of the array, so the last axis of the view runs over one group. It takes the minimum and the maximum over that axis,
  keeps them as [8192, 64, 1] columns, computes the step and the offset of each group there, spreads both along the group,
  quantizes every entry, and views the result as [8192, 8192] again. Read at coordinates, each stage is the specification's
  function of the group `l ↦ x (R, j·128 + l)`: `lowest`, `highest`, `step`, `offset`, and finally `fakeQuant`. Entry
  `(R, C)` of the final view is entry `(R, C / 128, C % 128)` of the quantized array, whose group is `groupOf x R C`
  and whose own value is `x (R, C)`.
-/
import proofs.«133565_j90692529423060_1_alg».proof.Proof.Gen.ReferenceIdeal.Read
import proofs.«133565_j90692529423060_1_alg».proof.Proof.Spec
import proofs.«133565_j90692529423060_1_alg».proof.Proof.LibLaneFold

noncomputable section

namespace Cert.ReferenceIdeal.Stages

open Cert.ReferenceIdeal Cert.ReferenceIdeal.Gen Cert.ReferenceIdeal.Read Idealize.ShloMosaic Idealize.ShloMosaic.ValueIdx
open Cert.GroupQuant Cert.Lib.LaneFold

variable (x : FVec Ideal S8192x8192 .f32)

/-- Group `j` of row `R`: the 128 entries at columns `j·128 + l`. -/
def grp (R : Fin 8192) (j : Fin 64) : Fin 128 → EReal :=
  fun l => x (ix2 R ⟨j.val * 128 + l.val, by have := j.isLt; have := l.isLt; omega⟩)

/-! ## Where each layout operation reads -/

/-- The [8192, 64, 128] view at `(R, j, l)` is the array at `(R, j·128 + l)`. -/
theorem view_apply (R : Fin 8192) (j : Fin 64) (l : Fin 128) :
    val_main_v0 (F := Ideal) x (ix3 R j l) = grp x R j l := by
  rw [val_main_v0_apply]
  refine congrArg x (funext fun a => Fin.ext ?_)
  have hR := R.isLt; have hj := j.isLt; have hl := l.isLt
  match a with
  | ⟨0, _⟩ => show ((R.val * 64 + j.val) * 128 + l.val) / 8192 = R.val; omega
  | ⟨1, _⟩ => show ((R.val * 64 + j.val) * 128 + l.val) % 8192 = j.val * 128 + l.val; omega

theorem col_v2 (R : Fin 8192) (j : Fin 64) : idx_main_v2 (ix3 R j (0 : Fin 1)) = ix2 R j :=
  funext fun a => Fin.ext (by match a with | ⟨0, _⟩ => rfl | ⟨1, _⟩ => rfl)
theorem col_v6 (R : Fin 8192) (j : Fin 64) : idx_main_v6 (ix3 R j (0 : Fin 1)) = ix2 R j :=
  funext fun a => Fin.ext (by match a with | ⟨0, _⟩ => rfl | ⟨1, _⟩ => rfl)
theorem lane_v19 (R : Fin 8192) (j : Fin 64) (l : Fin 128) : idx_main_v19 (ix3 R j l) = ix3 R j (0 : Fin 1) :=
  funext fun a => Fin.ext (by match a with | ⟨0, _⟩ => rfl | ⟨1, _⟩ => rfl | ⟨2, _⟩ => rfl)
theorem lane_v22 (R : Fin 8192) (j : Fin 64) (l : Fin 128) : idx_main_v22 (ix3 R j l) = ix3 R j (0 : Fin 1) :=
  funext fun a => Fin.ext (by match a with | ⟨0, _⟩ => rfl | ⟨1, _⟩ => rfl | ⟨2, _⟩ => rfl)
theorem lane_v25 (R : Fin 8192) (j : Fin 64) (l : Fin 128) : idx_main_v25 (ix3 R j l) = ix3 R j (0 : Fin 1) :=
  funext fun a => Fin.ext (by match a with | ⟨0, _⟩ => rfl | ⟨1, _⟩ => rfl | ⟨2, _⟩ => rfl)
theorem lane_v27 (R : Fin 8192) (j : Fin 64) (l : Fin 128) : idx_main_v27 (ix3 R j l) = ix3 R j (0 : Fin 1) :=
  funext fun a => Fin.ext (by match a with | ⟨0, _⟩ => rfl | ⟨1, _⟩ => rfl | ⟨2, _⟩ => rfl)

/-! ## The two reductions -/

/-- The minimum over the view's last axis at `(R, j)`: the fold of `min` from +∞ over the group. -/
theorem groupMin (R : Fin 8192) (j : Fin 64) :
    val_main_v1 (F := Ideal) x (ix2 R j)
      = (Finset.univ : Finset (Fin 128)).fold min (Ideal.ofBits .f32 0x7F800000#32) (grp x R j) := by
  unfold val_main_v1
  refine (hostLastMin_apply _ _ reducesTo_S8192x64x128_S8192x64_d2 (by decide) h_S_ R j).trans ?_
  exact Finset.fold_congr fun l _ => view_apply x R j l

/-- The maximum over the view's last axis at `(R, j)`: the fold of `max` from −∞ over the group. -/
theorem groupMax (R : Fin 8192) (j : Fin 64) :
    val_main_v5 (F := Ideal) x (ix2 R j)
      = (Finset.univ : Finset (Fin 128)).fold max (Ideal.ofBits .f32 0xFF800000#32) (grp x R j) := by
  unfold val_main_v5
  refine (hostLastMax_apply _ _ reducesTo_S8192x64x128_S8192x64_d2 (by decide) h_S_ R j).trans ?_
  exact Finset.fold_congr fun l _ => view_apply x R j l

/-! ## The group's column values -/

theorem lowest_apply (R : Fin 8192) (j : Fin 64) :
    val_main_v4 (F := Ideal) x (ix3 R j (0 : Fin 1)) = lowest (grp x R j) := by
  rw [val_main_v4_apply, val_main_v2_apply, col_v2, groupMin]
  rfl

theorem highest_apply (R : Fin 8192) (j : Fin 64) :
    val_main_v8 (F := Ideal) x (ix3 R j (0 : Fin 1)) = highest (grp x R j) := by
  rw [val_main_v8_apply, val_main_v6_apply, col_v6, groupMax]
  rfl

theorem step_apply (R : Fin 8192) (j : Fin 64) :
    val_main_v13 (F := Ideal) x (ix3 R j (0 : Fin 1)) = step (grp x R j) := by
  rw [val_main_v13_apply, val_main_v11_apply, val_main_v9_apply, highest_apply, lowest_apply]
  rfl

theorem offset_apply (R : Fin 8192) (j : Fin 64) :
    val_main_v18 (F := Ideal) x (ix3 R j (0 : Fin 1)) = offset (grp x R j) := by
  rw [val_main_v18_apply, val_main_call1_v2_apply, val_main_v17_apply, val_main_v16_apply, val_main_v14_apply,
    lowest_apply, step_apply]
  rfl

/-! ## Every entry -/

/-- The quantized [8192, 64, 128] array at `(R, j, l)`: entry `l` of group `j` of row `R`, fake-quantized in its group. -/
theorem quantized_apply (R : Fin 8192) (j : Fin 64) (l : Fin 128) :
    val_main_v28 (F := Ideal) x (ix3 R j l) = fakeQuant (grp x R j) (grp x R j l) := by
  rw [val_main_v28_apply, val_main_v27_apply, lane_v27, val_main_v26_apply, val_main_v25_apply, lane_v25,
    val_main_v24_apply, val_main_call3_v2_apply, val_main_v23_apply, val_main_v22_apply, lane_v22, val_main_v21_apply,
    val_main_v20_apply, val_main_v19_apply, lane_v19, view_apply, step_apply, offset_apply]
  rfl

/-- THE REFERENCE'S RESULT is the specification of its argument. -/
theorem result_eq : val_main_v29 (F := Ideal) x = G x := by
  funext i
  obtain ⟨R, C, rfl⟩ : ∃ (R C : Fin 8192), i = ix2 R C := ⟨i 0, i 1, eq_ix2 i⟩
  have hR := R.isLt; have hC := C.isLt
  have hidx : idx_main_v29 (ix2 R C) = ix3 R (⟨C.val / 128, by omega⟩ : Fin 64) (⟨C.val % 128, by omega⟩ : Fin 128) :=
    funext fun a => Fin.ext (by
      match a with
      | ⟨0, _⟩ => show (R.val * 8192 + C.val) / 8192 = R.val; omega
      | ⟨1, _⟩ => show (R.val * 8192 + C.val) / 128 % 64 = C.val / 128; omega
      | ⟨2, _⟩ => show (R.val * 8192 + C.val) % 128 = C.val % 128; omega)
  rw [val_main_v29_apply, hidx, quantized_apply]
  show _ = fakeQuant (groupOf x R C) (x (ix2 R C))
  have hg : grp x R (⟨C.val / 128, by omega⟩ : Fin 64) = groupOf x R C := rfl
  have he : groupOf x R C (⟨C.val % 128, by omega⟩ : Fin 128) = x (ix2 R C) :=
    congrArg x (funext fun a => Fin.ext (by
      match a with
      | ⟨0, _⟩ => rfl
      | ⟨1, _⟩ => show C.val / 128 * 128 + C.val % 128 = C.val; omega))
  rw [hg, he]

end Cert.ReferenceIdeal.Stages

end
-- ==== Proof.lean ====
/-
  Fake quantization in groups of 128 columns: the kernel and the reference compute one function.

  Both programs take an [8192, 8192] array `x` and, for every row and every group of 128 consecutive columns, observe the
  group's range `[lowest, highest]` (always containing 0), derive a step `max ((highest − lowest) / 255) ε` and an offset
  (the level of 0, rounded to even and clamped to [−128, 127]), and send each entry `e` of the group to
  `(clamp (round (e / step) + offset) − offset) · step` (Proof/Spec.lean: `fakeQuant`, and `G` for the whole array).

  The kernel walks a 2 × 64 grid of [4096, 128] blocks, one group wide, and takes the range along the lanes of a block's
  row; the reference views the array as [8192, 64, 128] and takes the range along the last axis. A minimum and a maximum
  do not depend on the order of their operands, so both are the same fold over the group's 128 entries
  (Proof/LibLaneFold.lean). Everything after the range is the same tree of operations with the same constants on both
  sides, applied entry by entry; on the extended reals the two quotients are one function and so are the two roundings.
  No law of arithmetic beyond that is used, and the finiteness of the input is never needed.

  Proof/KernelBlock.lean reads one stored block at an entry, Proof/KernelArray.lean tiles the result with the blocks,
  Proof/RefStages.lean reads the reference stage by stage. The frames are the generated ones; the idealization rewrote
  nothing, so `preserves` has nothing to state.
-/
import proofs.«133565_j90692529423060_1_alg».proof.Defs
import proofs.«133565_j90692529423060_1_alg».proof.Proof.Gen.Kernel
import proofs.«133565_j90692529423060_1_alg».proof.Proof.Gen.Kernel.Skeleton
import proofs.«133565_j90692529423060_1_alg».proof.Proof.Gen.Kernel.Launch
import proofs.«133565_j90692529423060_1_alg».proof.Proof.Gen.Kernel.Points
import proofs.«133565_j90692529423060_1_alg».proof.Proof.Gen.Kernel.Frame
import proofs.«133565_j90692529423060_1_alg».proof.Proof.Gen.KernelIdeal
import proofs.«133565_j90692529423060_1_alg».proof.Proof.Gen.KernelIdeal.Skeleton
import proofs.«133565_j90692529423060_1_alg».proof.Proof.Gen.KernelIdeal.Launch
import proofs.«133565_j90692529423060_1_alg».proof.Proof.Gen.KernelIdeal.Points
import proofs.«133565_j90692529423060_1_alg».proof.Proof.Gen.KernelIdeal.Frame
import proofs.«133565_j90692529423060_1_alg».proof.Proof.Gen.ReferenceIdeal
import proofs.«133565_j90692529423060_1_alg».proof.Proof.Gen.KernelIdeal.Value
import proofs.«133565_j90692529423060_1_alg».proof.Proof.Gen.ReferenceIdeal.Run
import proofs.«133565_j90692529423060_1_alg».proof.Proof.Gen.ReferenceIdeal.Read
import proofs.«133565_j90692529423060_1_alg».proof.Proof.Gen.Pre_finite_inputs
import proofs.«133565_j90692529423060_1_alg».proof.Proof.KernelArray
import proofs.«133565_j90692529423060_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, the kernel's result array ends at `G` of the argument (the blocks tile it),
    and the reference's result is `G` of the same argument (stage by stage). -/
theorem algebraic : Cert.algebraic_KernelIdeal_ReferenceIdeal := by
  intro m ρ m' ρ' _ hagree
  refine ⟨fun c => Cert.GroupQuant.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.Stages.result_eq, hagree c]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
